-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024 : Shape := ⟨1, ![1024]⟩
abbrev S1x1024 : Shape := ⟨2, ![1, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32768x1024 .f32) (main_arg1 : FVec F S1024 .f32) (main_arg2 : FVec F S1x1024 .f32) (main_arg3 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32768x1024 : Shape := ⟨2, ![32768, 1024]⟩
abbrev S1024 : Shape := ⟨1, ![1024]⟩
abbrev S1x1024 : Shape := ⟨2, ![1, 1024]⟩
abbrev S32768x1 : Shape := ⟨2, ![32768, 1]⟩
abbrev S32768 : Shape := ⟨1, ![32768]⟩
abbrev S_ : Shape := ⟨0, ![]⟩
abbrev S1 : Shape := ⟨1, ![1]⟩
abbrev S4096x1 : Shape := ⟨2, ![4096, 1]⟩
abbrev S4096x1024 : Shape := ⟨2, ![4096, 1024]⟩

abbrev nBuf : Space → Nat
  | .hbm => 18
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S1024, .f32⟩
  | .hbm, ⟨4, _⟩ => ⟨S32768x1, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S1x1024, .f32⟩
  | .hbm, ⟨17, _⟩ => ⟨S32768x1024, .f32⟩
  | .local _ .vmem, ⟨0, _⟩ => ⟨S4096x1, .f32⟩
  | .local _ .vmem, ⟨1, _⟩ => ⟨S4096x1, .f32⟩
  | .local _ .vmem, ⟨2, _⟩ => ⟨S1x1024, .f32⟩
  | .local _ .vmem, ⟨3, _⟩ => ⟨S1x1024, .f32⟩
  | .local _ .vmem, ⟨4, _⟩ => ⟨S4096x1024, .f32⟩
  | .local _ .vmem, ⟨5, _⟩ => ⟨S4096x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S32768x1024_S32768x1_0_0 : S32768x1024.Slices ![0, 0] S32768x1
  shapeCasts_S32768x1_S32768 : S32768x1.ShapeCasts S32768
  bcast_S_S32768 : S_.BroadcastsInDim S32768 (![] : Fin 0 → Fin S32768.rank)
  slices_S1024_S1_0 : S1024.Slices ![0] S1
  shapeCasts_S1_S_ : S1.ShapeCasts S_
  shapeCasts_S32768_S32768x1 : S32768.ShapeCasts S32768x1
  shapeCasts_S1024_S1x1024 : S1024.ShapeCasts S1x1024
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x1024_S1x1024_0_0 : ∀ a, (![0, 0] : Fin 2 → Nat) a + S1x1024.size a ≤ S1x1024.size a
  h_S1x1024 : 0 < S1x1024.numel
  broadcasts_S4096x1_S4096x1024 : S4096x1.Broadcasts S4096x1024
  broadcasts_S1x1024_S4096x1024 : S1x1024.Broadcasts S4096x1024
  shapeCasts_S1x1024_S1x1024 : S1x1024.ShapeCasts S1x1024
  inb_S4096x1024_S4096x1024_0_0 : ∀ a, (![0, 0] : Fin 2 → Nat) a + S4096x1024.size a ≤ S4096x1024.size a
  h_S4096x1024 : 0 < S4096x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S32768x1.size a
  hwx0_0 : ∀ i : grid0.Coords, EltTy.bits .f32 = 32 ∨ (Rect.block (s := S32768x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S32768x1024.size a
  hwx0_3 : ∀ i : grid0.Coords, EltTy.bits .f32 = 32 ∨ (Rect.block (s := S32768x1024) S4096x1024.size (cc0_transform_3 i) (hinb0_3 i)).WholeWords (EltTy.packing .f32)

variable [Facts₀]

abbrev win0_0 : Pipeline.Window sig grid0 :=
  Pipeline.Window.ofSpec (Memref.whole main_v10) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4096x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024 : Shape := ⟨1, ![1024]⟩
abbrev S1x1024 : Shape := ⟨2, ![1, 1024]⟩
abbrev S32768x1 : Shape := ⟨2, ![32768, 1]⟩
abbrev S32768 : Shape := ⟨1, ![32768]⟩
abbrev S_ : Shape := ⟨0, ![]⟩
abbrev S1 : Shape := ⟨1, ![1]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S1024, .f32⟩
  | .hbm, ⟨4, _⟩ => ⟨S32768x1, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  slices_S32768x1024_S32768x1_0_0 : S32768x1024.Slices ![0, 0] S32768x1
  shapeCasts_S32768x1_S32768 : S32768x1.ShapeCasts S32768
  bcast_S_S32768 : S_.BroadcastsInDim S32768 (![] : Fin 0 → Fin S32768.rank)
  slices_S1024_S1_0 : S1024.Slices ![0] S1
  shapeCasts_S1_S_ : S1.ShapeCasts S_
  bcast_S32768_S32768x1_0 : S32768.BroadcastsInDim S32768x1 (![0] : Fin 1 → Fin S32768x1.rank)
  shapeCasts_S1x1024_S1024 : S1x1024.ShapeCasts S1024
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)

variable [Facts₀]

class Facts : Prop extends Facts₀ where

variable [Facts]
-- ==== Proof.Dense.lean ====
/-
  The specification both programs meet, over the extended reals. For a batch `x : 32768 × 1024`, angles
  `θ : 1024`, one weight row `W : 1 × 1024` and a bias `b : 1024`:

    expect x θ r  = cos (π̃ · x[r, 0]) · cos (θ[0])              -- the measured expectation of row r
    dense  …  [r, c] = expect x θ r · W[0, c] + b[c]             -- the rank-one dense layer on top of it

  where π̃ is the binary32 value nearest π (the same word in both programs, so it is never evaluated).
  Only column 0 of `x` and entry 0 of `θ` are read. No law of arithmetic is used anywhere in the
  certificate: both programs perform these operations in this order, and differ only in how the
  index (r, c) is routed to the operands (reshapes against broadcasts, row blocks against the whole array).
-/
import Idealize.ShloMosaic.PureOps.Ideal
import Idealize.ShloMosaic.Lib.ValueIdx

noncomputable section

namespace Cert.Dense

open Idealize.ShloMosaic Idealize.ShloMosaic.ValueIdx

abbrev SBatch : Shape := ⟨2, ![32768, 1024]⟩
abbrev SVec : Shape := ⟨1, ![1024]⟩
abbrev SRow : Shape := ⟨2, ![1, 1024]⟩

/-- The expectation of row `r`: the cosine of π̃ times the row's first entry, times the cosine of the first angle. -/
def expect (x : SBatch.Idx → EReal) (θ : SVec.Idx → EReal) (r : Fin 32768) : EReal :=
  Ideal.cos (Ideal.ofBits .f32 0x40490FDB#32 * x (ix2 r (0 : Fin 1024))) * Ideal.cos (θ (ix1 (0 : Fin 1024)))

/-- The layer's output: entry (r, c) is row r's expectation times the weight of column c, plus the bias of column c. -/
def dense (x : SBatch.Idx → EReal) (θ : SVec.Idx → EReal) (W : SRow.Idx → EReal) (b : SVec.Idx → EReal) :
    SBatch.Idx → EReal :=
  fun i => expect x θ ⟨(i 0).val, (i 0).isLt⟩ * W (ix2 (0 : Fin 1) ⟨(i 1).val, (i 1).isLt⟩) + b (ix1 ⟨(i 1).val, (i 1).isLt⟩)

/-- `dense` read at an index whose coordinates are named: row `r`, column `q`. -/
theorem dense_at (x : SBatch.Idx → EReal) (θ : SVec.Idx → EReal) (W : SRow.Idx → EReal) (b : SVec.Idx → EReal)
    (i : SBatch.Idx) (r : Fin 32768) (q : Fin 1024) (hr : (i 0).val = r.val) (hq : (i 1).val = q.val) :
    dense x θ W b i = expect x θ r * W (ix2 (0 : Fin 1) q) + b (ix1 q) := by
  unfold dense
  have e0 : (⟨(i 0).val, (i 0).isLt⟩ : Fin 32768) = r := Fin.ext hr
  have e1 : (⟨(i 1).val, (i 1).isLt⟩ : Fin 1024) = q := Fin.ext hq
  rw [e0, e1]

end Cert.Dense

end
-- ==== Proof.ReferenceDense.lean ====
/-
  The reference computes `Dense.dense`. Its program builds the expectation vector (slice column 0, scale by π̃,
  cosine; slice θ[0], cosine; multiply), lifts it to a column, lifts the weight row and the bias to the full
  shape by broadcasts, multiplies and adds. Read at an index (r, c) every broadcast and reshape only routes
  the index: the column reads row r, the two rows read column c.
-/
import proofs.«137938_j71760313582074_1_alg».proof.Proof.Gen.ReferenceIdeal.Read
import proofs.«137938_j71760313582074_1_alg».proof.Proof.Dense
import Idealize.ShloMosaic.Lib.ValueIdx
import Idealize.ShloMosaic.Lib.Pipeline.Value

noncomputable section

namespace Cert.ReferenceIdeal.RefDense

open Cert.ReferenceIdeal Cert.ReferenceIdeal.Gen Cert.ReferenceIdeal.Read
open Idealize.ShloMosaic Idealize.ShloMosaic.ValueIdx Cert.Dense

/-- The rank-0 reshape of the one-entry slice of θ holds θ[0]. -/
theorem theta0 (x1 : S1024.Idx → EReal) (i : S_.Idx) : val_main_v6 (F := Ideal) x1 i = x1 (ix1 (0 : Fin 1024)) := by
  unfold val_main_v6
  refine (shapeCast_apply (val_main_v5 (F := Ideal) x1) shapeCasts_S1_S_ i (ix1 (0 : Fin 1)) ?_).trans ?_
  · rw [Shape.rowMajor_val_one]
    have h : (S_.rowMajor i).val < 1 := (S_.rowMajor i).isLt
    show 0 = (S_.rowMajor i).val
    omega
  · rw [val_main_v5_apply]
    exact congrArg x1 (funext fun a => Fin.ext (by match a with | ⟨0, _⟩ => rfl))

/-- The expectation vector at row r is `expect` of row r. -/
theorem expect_at (x0 : S32768x1024.Idx → EReal) (x1 : S1024.Idx → EReal) (i : S32768.Idx) :
    val_main_v9 (F := Ideal) x0 x1 i = expect x0 x1 ⟨(i 0).val, (i 0).isLt⟩ := by
  rw [val_main_v9_apply, val_main_v4_apply, val_main_v3_apply, val_main_v2_apply, val_main_cst_apply,
    val_main_v1_apply, val_main_v0_apply, val_main_v8_apply, val_main_v7_apply, theta0]
  have e : idx_main_v0 (idx_main_v1 i) = ix2 (⟨(i 0).val, (i 0).isLt⟩ : Fin 32768) (0 : Fin 1024) :=
    funext fun a => Fin.ext (by
      match a with
      | ⟨0, _⟩ => show (i 0).val / 1 = (i 0).val; omega
      | ⟨1, _⟩ => rfl)
  rw [e]
  rfl

/-- The reference's result is `dense` of its arguments. -/
theorem result_eq (x0 : S32768x1024.Idx → EReal) (x1 : S1024.Idx → EReal) (x2 : S1x1024.Idx → EReal) (x3 : S1024.Idx → EReal) :
    val_main_v18 (F := Ideal) x0 x1 x2 x3 = dense x0 x1 x2 x3 := by
  funext i
  rw [val_main_v18_apply, val_main_v15_apply, val_main_v13_apply, val_main_v10_apply, expect_at,
    val_main_v14_apply, val_main_v12_apply, val_main_v11_apply, val_main_v17_apply, val_main_v16_apply]
  have eW : idx_main_v11 (idx_main_v12 (idx_main_v14 i)) = ix2 (0 : Fin 1) (⟨(i 1).val, (i 1).isLt⟩ : Fin 1024) :=
    funext fun a => Fin.ext (by
      match a with
      | ⟨0, _⟩ => rfl
      | ⟨1, _⟩ => show (i 1).val % 1024 = (i 1).val; have h : (i 1).val < 1024 := (i 1).isLt; omega)
  have eb : idx_main_v16 (idx_main_v17 i) = ix1 (⟨(i 1).val, (i 1).isLt⟩ : Fin 1024) :=
    funext fun a => Fin.ext (by match a with | ⟨0, _⟩ => rfl)
  rw [eW, eb]
  rfl

end Cert.ReferenceIdeal.RefDense

end
-- ==== Proof.KernelWindows.lean ====
/-
  What the kernel's region finds in the two arrays the host wrote before it. The expectation column
  (32768 × 1) is the reshape of the very vector the reference builds — the same operations on the same
  arguments — so at (r, 0) it holds `expect` of row r. The bias row (1 × 1024) is the reshape of `b`,
  so at (0, q) it holds b[q]. The weight row is the argument `W` itself.
-/
import proofs.«137938_j71760313582074_1_alg».proof.Proof.Gen.KernelIdeal.Value
import proofs.«137938_j71760313582074_1_alg».proof.Proof.ReferenceDense
import proofs.«137938_j71760313582074_1_alg».proof.Proof.Dense
import Idealize.ShloMosaic.Lib.ValueIdx
import Idealize.ShloMosaic.Lib.Pipeline.Value
import Idealize.ShloMosaic.Lib.StableHlo.Run

noncomputable section

namespace Cert.KernelIdeal.KerDense

open Cert.KernelIdeal Cert.KernelIdeal.Gen
open Idealize.ShloMosaic Idealize.ShloMosaic.TcCoe Idealize.SL.Sem Idealize.ShloMosaic.ValueIdx Idealize.ShloMosaic.StableHlo Cert.Dense

variable (m : (ℓ : Loc nD τ sig) → Buf (Elt Ideal) ℓ)

/-- The column the region finds is the reshape of the expectation vector of the arguments. -/
theorem column_eq (c : Dev nD) :
    (V m c main_v10 : S32768x1.Idx → EReal) = shapeCast S32768x1 (Cert.ReferenceIdeal.Read.val_main_v9 (F := Ideal) (m ((c : Thread nD τ).loc main_arg0)) (m ((c : Thread nD τ).loc main_arg1))) shapeCasts_S32768_S32768x1 := by
  dsimp only [Gen.V, Gen.hostOps0]; after_results; rfl

/-- Entry (r, 0) of the column is row r's expectation. -/
theorem column_at (c : Dev nD) (r : Fin 32768) :
    (V m c main_v10 : S32768x1.Idx → EReal) (ix2 r (0 : Fin 1)) = expect (m ((c : Thread nD τ).loc main_arg0)) (m ((c : Thread nD τ).loc main_arg1)) r := by
  rw [column_eq]
  refine (shapeCast_apply _ shapeCasts_S32768_S32768x1 (ix2 r (0 : Fin 1)) (ix1 r) ?_).trans ?_
  · rw [Shape.rowMajor_val_two, Shape.rowMajor_val_one]
    show r.val = r.val * 1 + 0
    omega
  · exact Cert.ReferenceIdeal.RefDense.expect_at _ _ (ix1 r)

/-- The bias row the region finds is the reshape of `b`. -/
theorem bias_eq (c : Dev nD) :
    (V m c main_v11 : S1x1024.Idx → EReal) = shapeCast S1x1024 (m ((c : Thread nD τ).loc main_arg3)) shapeCasts_S1024_S1x1024 := by
  dsimp only [Gen.V, Gen.hostOps0]; after_results; rfl

/-- Entry (0, q) of the bias row is b[q]. -/
theorem bias_at (c : Dev nD) (q : Fin 1024) :
    (V m c main_v11 : S1x1024.Idx → EReal) (ix2 (0 : Fin 1) q) = m ((c : Thread nD τ).loc main_arg3) (ix1 q) := by
  rw [bias_eq]
  refine shapeCast_apply _ shapeCasts_S1024_S1x1024 (ix2 (0 : Fin 1) q) (ix1 q) ?_
  rw [Shape.rowMajor_val_two, Shape.rowMajor_val_one]
  show q.val = 0 * 1024 + q.val
  omega

end Cert.KernelIdeal.KerDense

end
-- ==== Proof.KernelDense.lean ====
/-
  The kernel computes `Dense.dense`. Its grid has 8 points; point t stages rows [4096·t, 4096·t + 4096) of the
  expectation column, the whole weight row and the whole bias row, and writes back rows [4096·t, 4096·t + 4096)
  of the output, all 1024 columns. The body leaves at (p, q) of its block
      column[p, 0] · weight[0, q] + bias[0, q],
  and row p of point t's column block is row 4096·t + p of the column, whose entry is that row's expectation:
  so point t writes back block t of `dense`. The 8 row blocks tile the output (row r lies in block r / 4096),
  so after the run the output array is `dense` of the arguments.
-/
import proofs.«137938_j71760313582074_1_alg».proof.Proof.KernelWindows
import proofs.«137938_j71760313582074_1_alg».proof.Proof.Gen.KernelIdeal.Value
import proofs.«137938_j71760313582074_1_alg».proof.Proof.ReferenceDense
import proofs.«137938_j71760313582074_1_alg».proof.Proof.Dense
import Idealize.ShloMosaic.Lib.ValueIdx
import Idealize.ShloMosaic.Lib.Pipeline.Value
import Idealize.ShloMosaic.Lib.StableHlo.Run

noncomputable section

namespace Cert.KernelIdeal.KerDense

open Cert.KernelIdeal Cert.KernelIdeal.Gen Cert.KernelIdeal.Value
open Idealize.ShloMosaic Idealize.ShloMosaic.TcCoe Idealize.SL.Sem Idealize.ShloMosaic.ValueIdx Idealize.ShloMosaic.StableHlo Cert.Dense
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- What the body leaves at (p, q) of its block: the column block's row p times the weight row's column q,
    plus the bias row's column q. -/
theorem block_at (P0 : Vec Ideal S4096x1 .f32) (P1 : Vec Ideal S1x1024 .f32) (P2 : Vec Ideal S1x1024 .f32) (p : Fin 4096) (q : Fin 1024) :
    out0_3 P0 P1 P2 (ix2 p q) = P0 (ix2 p (0 : Fin 1)) * P1 (ix2 (0 : Fin 1) q) + P2 (ix2 (0 : Fin 1) q) := by
  unfold out0_3
  rw [canon3_eq]
  simp only [View.ld_unit_zero (S := S4096x1) origin, View.ld_unit_zero (S := S1x1024) origin]
  show P0 (ix3_0 (ix2 p q)) * P1 (ix3_1 (ix2 p q)) + P2 (ix3_2 (ix2 p q)) = _
  have e0 : ix3_0 (ix2 p q) = ix2 p (0 : Fin 1) := funext fun a => Fin.ext (by match a with | ⟨0, _⟩ => rfl | ⟨1, _⟩ => rfl)
  have e1 : ix3_1 (ix2 p q) = ix2 (0 : Fin 1) q := funext fun a => Fin.ext (by match a with | ⟨0, _⟩ => rfl | ⟨1, _⟩ => rfl)
  have e2 : ix3_2 (ix2 p q) = ix2 (0 : Fin 1) q := funext fun a => Fin.ext (by match a with | ⟨0, _⟩ => rfl | ⟨1, _⟩ => rfl)
  rw [e0, e1, e2]

/-- The index maps over the grid: the column and the output move together along the rows, block t at point t;
    the two rows stay at block (0, 0); no window moves along the columns. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- Point t writes back block t of `dense` of the arguments. -/
theorem flushed_eq (c : Dev nD) (t : Fin cfg0.N) :
    (dats m 0 c).flushed 3 t = ((cfg0.win 3).blk t).view.read (Elt Ideal)
      (dense (m ((c : Thread nD τ).loc main_arg0)) (m ((c : Thread nD τ).loc main_arg1)) (m ((c : Thread nD τ).loc main_arg2)) (m ((c : Thread nD τ).loc main_arg3))) := by
  rw [Value.flushed3]
  funext j
  have hj0 : (j 0).val < 4096 := (j 0).isLt
  have hj1 : (j 1).val < 1024 := (j 1).isLt
  obtain ⟨e00, e01, e10, e11, e20, e21, e31, e30⟩ := index_facts t
  have ht : t.val < 8 := t.isLt
  show out0_3 (iblk m c 0 t) (iblk m c 1 t) (iblk m c 2 t) j = dense _ _ _ _ (((cfg0.win 3).blk t).view.emb j)
  have hj : (j : S4096x1024.Idx) = ix2 (⟨(j 0).val, hj0⟩ : Fin 4096) (⟨(j 1).val, hj1⟩ : Fin 1024) :=
    funext fun a => Fin.ext (by match a with | ⟨0, _⟩ => rfl | ⟨1, _⟩ => rfl)
  refine (congrArg (out0_3 (iblk m c 0 t) (iblk m c 1 t) (iblk m c 2 t)) hj).trans ?_
  refine (block_at (iblk m c 0 t) (iblk m c 1 t) (iblk m c 2 t) ⟨(j 0).val, hj0⟩ ⟨(j 1).val, hj1⟩).trans ?_
  -- row (j 0) of point t's column block is row 4096·t + (j 0) of the column
  have h0 : iblk m c 0 t (ix2 (⟨(j 0).val, hj0⟩ : Fin 4096) (0 : Fin 1))
      = expect (m ((c : Thread nD τ).loc main_arg0)) (m ((c : Thread nD τ).loc main_arg1)) ⟨t.val * 4096 + (j 0).val, by omega⟩ := by
    show (V m c main_v10 : S32768x1.Idx → EReal) (((cfg0.win 0).blk t).view.emb (ix2 (⟨(j 0).val, hj0⟩ : Fin 4096) (0 : Fin 1))) = _
    have e : ((cfg0.win 0).blk t).view.emb (ix2 (⟨(j 0).val, hj0⟩ : Fin 4096) (0 : Fin 1))
        = ix2 (⟨t.val * 4096 + (j 0).val, by omega⟩ : Fin 32768) (0 : Fin 1) := by
      funext a; apply Fin.ext
      match a with
      | ⟨0, _⟩ => show win0_0.index t (0 : Fin 2) * 4096 + 1 * (j 0).val = t.val * 4096 + (j 0).val; omega
      | ⟨1, _⟩ => show win0_0.index t (1 : Fin 2) * 1 + 1 * 0 = 0; omega
    rw [e]
    exact column_at m c _
  -- the weight row's block is the row itself
  have h1 : iblk m c 1 t (ix2 (0 : Fin 1) (⟨(j 1).val, hj1⟩ : Fin 1024))
      = m ((c : Thread nD τ).loc main_arg2) (ix2 (0 : Fin 1) (⟨(j 1).val, hj1⟩ : Fin 1024)) := by
    show (V m c main_arg2 : S1x1024.Idx → EReal) (((cfg0.win 1).blk t).view.emb (ix2 (0 : Fin 1) (⟨(j 1).val, hj1⟩ : Fin 1024))) = _
    rw [V_main_arg2]
    refine congrArg _ ?_
    funext a; apply Fin.ext
    match a with
    | ⟨0, _⟩ => show win0_1.index t (0 : Fin 2) * 1 + 1 * 0 = 0; omega
    | ⟨1, _⟩ => show win0_1.index t (1 : Fin 2) * 1024 + 1 * (j 1).val = (j 1).val; omega
  -- the bias row's block is the row itself
  have h2 : iblk m c 2 t (ix2 (0 : Fin 1) (⟨(j 1).val, hj1⟩ : Fin 1024))
      = m ((c : Thread nD τ).loc main_arg3) (ix1 (⟨(j 1).val, hj1⟩ : Fin 1024)) := by
    show (V m c main_v11 : S1x1024.Idx → EReal) (((cfg0.win 2).blk t).view.emb (ix2 (0 : Fin 1) (⟨(j 1).val, hj1⟩ : Fin 1024))) = _
    have e : ((cfg0.win 2).blk t).view.emb (ix2 (0 : Fin 1) (⟨(j 1).val, hj1⟩ : Fin 1024)) = ix2 (0 : Fin 1) (⟨(j 1).val, hj1⟩ : Fin 1024) := by
      funext a; apply Fin.ext
      match a with
      | ⟨0, _⟩ => show win0_2.index t (0 : Fin 2) * 1 + 1 * 0 = 0; omega
      | ⟨1, _⟩ => show win0_2.index t (1 : Fin 2) * 1024 + 1 * (j 1).val = (j 1).val; omega
    rw [e]
    exact bias_at m c _
  rw [h0, h1, h2]
  exact (dense_at _ _ _ _ (((cfg0.win 3).blk t).view.emb j) ⟨t.val * 4096 + (j 0).val, by omega⟩ ⟨(j 1).val, hj1⟩
    (by show win0_3.index t (0 : Fin 2) * 4096 + 1 * (j 0).val = t.val * 4096 + (j 0).val; omega)
    (by show win0_3.index t (1 : Fin 2) * 1024 + 1 * (j 1).val = (j 1).val; omega)).symm

/-- An index of the output lies in point t's block iff each coordinate lies in the block's range on its axis. -/
theorem mem_block (t : Fin cfg0.N) (i : S32768x1024.Idx) :
    i ∈ ((cfg0.win 3).blk t).view.set ↔ ∀ a : Fin 2, win0_3.index t a * S4096x1024.size a ≤ (i a).val ∧ (i a).val < win0_3.index t a * S4096x1024.size a + S4096x1024.size a := by
  show i ∈ ((View.whole main_v12).slice (win0_3.rect t)).set ↔ _
  rw [View.set_slice_whole, Rect.mem_set_unit]
  exact Iff.rfl

/-- Every index of the output lies in some point's block: row r in the block of point r / 4096. -/
theorem covered (i : S32768x1024.Idx) : ∃ t : Fin cfg0.N, (cfg0.win 3).flush t = true ∧ i ∈ ((cfg0.win 3).blk t).view.set := by
  have hi0 : (i 0).val < 32768 := (i 0).isLt
  have hi1 : (i 1).val < 1024 := (i 1).isLt
  have hN : (i 0).val / 4096 < cfg0.N := by show _ < grid0.N; rw [N_0]; omega
  obtain ⟨-, -, -, -, -, -, e31, e30⟩ := index_facts ⟨(i 0).val / 4096, hN⟩
  refine ⟨⟨(i 0).val / 4096, hN⟩, flush0_3 _, ?_⟩
  rw [mem_block]
  intro a
  match a with
  | ⟨0, _⟩ =>
    show win0_3.index ⟨(i 0).val / 4096, hN⟩ (0 : Fin 2) * 4096 ≤ (i 0).val ∧ (i 0).val < win0_3.index ⟨(i 0).val / 4096, hN⟩ (0 : Fin 2) * 4096 + 4096
    have e : win0_3.index ⟨(i 0).val / 4096, hN⟩ (0 : Fin 2) = (i 0).val / 4096 := e30
    omega
  | ⟨1, _⟩ =>
    show win0_3.index ⟨(i 0).val / 4096, hN⟩ (1 : Fin 2) * 1024 ≤ (i 1).val ∧ (i 1).val < win0_3.index ⟨(i 0).val / 4096, hN⟩ (1 : Fin 2) * 1024 + 1024
    omega

/-- After the run the output array is `dense` of the arguments. -/
theorem final (c : Dev nD) : (dats m 0 c).arrAt 3 cfg0.N
    = dense (m ((c : Thread nD τ).loc main_arg0)) (m ((c : Thread nD τ).loc main_arg1)) (m ((c : Thread nD τ).loc main_arg2)) (m ((c : Thread nD τ).loc main_arg3)) :=
  (dats m 0 c).arrAt_eq_of_cover 3 _ (fun t _ => flushed_eq m c t) covered

/-- Every weakly fair execution of the kernel's program terminates with its result at `dense` of the arguments and
    the arguments unchanged. -/
theorem run : θ_run defs (onTc (τ := τ) (main (F := Ideal))) ⟨m, fun _ => 0, ρ⟩ fun r => ∀ c : Dev nD,
      r.2.mem ((c : Thread nD τ).loc main_v12) = dense (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KerDense

end
-- ==== Proof.lean ====
/-
  The kernel and its reference compute one function of (x, θ, W, b) over the extended reals:

      out[r, c] = cos (π̃ · x[r, 0]) · cos (θ[0]) · W[0, c] + b[c]        (`Dense.dense`, Proof/Dense.lean)

  with π̃ the binary32 value nearest π. Both programs form the expectation vector cos (π̃ · x[·, 0]) · cos (θ[0])
  by the same host operations. The reference then broadcasts it, the weight row and the bias to 32768 × 1024 and
  multiplies and adds (Proof/ReferenceDense.lean). The kernel reshapes the vector to a column and the bias to a row
  (Proof/KernelWindows.lean) and runs the multiply-add on 8 row blocks of 4096 rows, each point writing its own
  block of the output; the blocks tile the output (Proof/KernelDense.lean). The operations and their order agree,
  so no law of arithmetic — and hence no finiteness of the inputs — is needed: the precondition is never opened.
  The three programs terminate with their arguments unchanged (the frames); the idealization rewrote nothing, so
  there is nothing to preserve.
-/
import proofs.«137938_j71760313582074_1_alg».proof.Defs
import proofs.«137938_j71760313582074_1_alg».proof.Proof.Gen.Kernel
import proofs.«137938_j71760313582074_1_alg».proof.Proof.Gen.Kernel.Skeleton
import proofs.«137938_j71760313582074_1_alg».proof.Proof.Gen.Kernel.Launch
import proofs.«137938_j71760313582074_1_alg».proof.Proof.Gen.Kernel.Points
import proofs.«137938_j71760313582074_1_alg».proof.Proof.Gen.Kernel.Frame
import proofs.«137938_j71760313582074_1_alg».proof.Proof.Gen.KernelIdeal
import proofs.«137938_j71760313582074_1_alg».proof.Proof.Gen.KernelIdeal.Skeleton
import proofs.«137938_j71760313582074_1_alg».proof.Proof.Gen.KernelIdeal.Launch
import proofs.«137938_j71760313582074_1_alg».proof.Proof.Gen.KernelIdeal.Points
import proofs.«137938_j71760313582074_1_alg».proof.Proof.Gen.KernelIdeal.Frame
import proofs.«137938_j71760313582074_1_alg».proof.Proof.Gen.ReferenceIdeal
import proofs.«137938_j71760313582074_1_alg».proof.Proof.Gen.Pre_finite_inputs
import proofs.«137938_j71760313582074_1_alg».proof.Proof.Gen.KernelIdeal.Value
import proofs.«137938_j71760313582074_1_alg».proof.Proof.Gen.ReferenceIdeal.Run
import proofs.«137938_j71760313582074_1_alg».proof.Proof.Gen.ReferenceIdeal.Read
import proofs.«137938_j71760313582074_1_alg».proof.Proof.Dense
import proofs.«137938_j71760313582074_1_alg».proof.Proof.ReferenceDense
import proofs.«137938_j71760313582074_1_alg».proof.Proof.KernelWindows
import proofs.«137938_j71760313582074_1_alg».proof.Proof.KernelDense
import Idealize.ShloMosaic.Adequacy
import Idealize.ShloMosaic.Init

noncomputable section

namespace Cert.Proof

open Idealize.ShloMosaic Idealize.SL.Sem

/-- The word-level kernel terminates with its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, its result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, the kernel ends at `dense` of its arguments and the reference at
    `dense` of its own, which are the same arrays. -/
theorem algebraic : Cert.algebraic_KernelIdeal_ReferenceIdeal := by
  intro m ρ m' ρ' _ hagree
  refine ⟨_, Cert.KernelIdeal.KerDense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefDense.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
